-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S128 .f32) (main_arg21 : FVec F S128x2 .f32) (main_arg22 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x2 .f32 := Host.absf main_arg21
  let main_cst_36 : FVec F S_ .f32 := constant S_ .f32 0x7F800000#32
  let main_v95 : FVec F S128x2 .f32 := broadcastInDim S128x2 ![] bcast_S_S128x2 main_cst_36
  let main_v96 : IVec S128x2 1 := cmpf .olt main_v94 main_v95
  let main_c_37 : IVec S_ 1 := constantI S_ 1 1#1
  let main_v97 : IVec S_ 1 := (fun x v => Host.reduce IntOp.andi x v reducesTo_S128x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128x2 .f32) (main_arg22 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S50000x1 : Shape := ⟨2, ![50000, 1]⟩
abbrev S1x2 : Shape := ⟨2, ![1, 2]⟩

abbrev nBuf : Space → Nat
  | .hbm => 74
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x2, .f32⟩
  | .hbm, ⟨22, _⟩ => ⟨S2, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x128, .bf16⟩
  | .hbm, ⟨41, _⟩ => ⟨S128x128, .bf16⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x128, .bf16⟩
  | .hbm, ⟨57, _⟩ => ⟨S128x128, .bf16⟩
  | .hbm, ⟨58, _⟩ => ⟨S50000x128, .f32⟩
  | .hbm, ⟨59, _⟩ => ⟨S_, .f32⟩
  | .hbm, ⟨60, _⟩ => ⟨S128x128, .f32⟩
  | .hbm, ⟨61, _⟩ => ⟨S50000x1, .i32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S128x128, .f32⟩
  | .hbm, ⟨66, _⟩ => ⟨S128x128, .f32⟩
  | .hbm, ⟨67, _⟩ => ⟨S_, .f32⟩
  | .hbm, ⟨68, _⟩ => ⟨S128x128, .f32⟩
  | .hbm, ⟨69, _⟩ => ⟨S128x128, .f32⟩
  | .hbm, ⟨70, _⟩ => ⟨S128x2, .f32⟩
  | .hbm, ⟨71, _⟩ => ⟨S1x2, .f32⟩
  | .hbm, ⟨72, _⟩ => ⟨S128x2, .f32⟩
  | .hbm, ⟨73, _⟩ => ⟨S128x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .bf16⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_call0_cst : Ref sig .tc := ⟨.hbm, 67, rfl⟩
abbrev main_call0_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S128x128, .f32⟩
  | 117 => ⟨S50000x1, .i32⟩
  | 118 => ⟨S128x128, .f32⟩
  | 119 => ⟨S128x128, .f32⟩
  | 120 => ⟨S1x128, .f32⟩
  | 121 => ⟨S128x128, .f32⟩
  | 122 => ⟨S128x128, .f32⟩
  | 123 => ⟨S_, .f32⟩
  | 124 => ⟨S128x128, .f32⟩
  | 125 => ⟨S128x128, .f32⟩
  | 126 => ⟨S128x2, .f32⟩
  | 127 => ⟨S1x2, .f32⟩
  | _ => ⟨S50000x128, .f32⟩

abbrev hbmTy0_1 (i : Nat) : BufTy := match i % 128 with
  | 0 => ⟨S128x2, .f32⟩
  | 1 => ⟨S128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call0_cst : Ref sig .tc := ⟨.hbm, 61, rfl⟩
abbrev main_call0_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_cst : Ref sig .tc := ⟨.hbm, 68, rfl⟩
abbrev main_call1_v0 : Ref sig .tc := ⟨.hbm, 69, rfl⟩
abbrev main_v39 : Ref sig .tc := ⟨.hbm, 70, rfl⟩
abbrev main_c_2 : Ref sig .tc := ⟨.hbm, 71, rfl⟩
abbrev main_v40 : Ref sig .tc := ⟨.hbm, 72, rfl⟩
abbrev main_v41 : Ref sig .tc := ⟨.hbm, 73, rfl⟩
abbrev main_c_3 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_cst : Ref sig .tc := ⟨.hbm, 105, rfl⟩
abbrev main_call2_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call3_cst : Ref sig .tc := ⟨.hbm, 112, rfl⟩
abbrev main_call3_v0 : Ref sig .tc := ⟨.hbm, 113, rfl⟩
abbrev main_v75 : Ref sig .tc := ⟨.hbm, 114, rfl⟩
abbrev main_cst_6 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_cst : Ref sig .tc := ⟨.hbm, 123, rfl⟩
abbrev main_call4_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.Layer.lean ====
/-
  One GIN layer, index by index on the extended reals.

  For node `r` with feature row `x r` and aggregated neighbour row `agg r`:
    h      = x r + agg r
    pre    = h · wa + ba                                   (a sum over the 128 input features)
    hidden = max (((pre − mm) · rsqrt (v + ε)) · g + b) 0  (evaluation-mode batch normalisation, then ReLU)
    out    = max (hidden · wb + bb) 0                      (second linear map, then ReLU)
  Every operation is the exact one on the extended reals; the product `(pre − mm) · rsqrt · g` is associated to the
  left, as both programs compute it. A node's output reads only that node's own rows of `x` and `agg`
  (`out_congr`), which is what lets a tiling of the node axis be ignored.
-/
import Idealize.ShloMosaic.PureOps.Ideal.Laws
import Idealize.ShloMosaic.Lib.ValueIdx

noncomputable section

namespace Cert.GinLayer

open Idealize.ShloMosaic Idealize.ShloMosaic.ValueIdx

/-- The normalisation's ε, as the f32 word both programs write (about 1e-5). -/
abbrev eps : EReal := Ideal.ofBits .f32 0x3727C5AC#32
/-- The ReLU's floor, as the f32 zero word both programs write. -/
abbrev floor0 : EReal := Ideal.ofBits .f32 0x00000000#32

section
variable {n : Nat}
variable (x agg : (⟨2, ![n, 128]⟩ : Shape).Idx → EReal) (wa : (⟨2, ![128, 128]⟩ : Shape).Idx → EReal)
  (ba g b mm v : (⟨1, ![128]⟩ : Shape).Idx → EReal) (wb : (⟨2, ![128, 128]⟩ : Shape).Idx → EReal)
  (bb : (⟨1, ![128]⟩ : Shape).Idx → EReal)

/-- Feature `k` of node `r` after the first linear map, the normalisation and the ReLU. -/
def hidden (r : Fin n) (k : Fin 128) : EReal :=
  max (((((∑ k' : Fin 128, (x (ix2 r k') + agg (ix2 r k')) * wa (ix2 k' k)) + ba (ix1 k)) - mm (ix1 k))
      * Ideal.rsqrt (v (ix1 k) + eps)) * g (ix1 k) + b (ix1 k)) floor0

/-- Feature `j` of node `r` after the second linear map and its ReLU. -/
def out (r : Fin n) (j : Fin 128) : EReal :=
  max ((∑ k : Fin 128, hidden x agg wa ba g b mm v r k * wb (ix2 k j)) + bb (ix1 j)) floor0

/-- The layer's result as an array over nodes × features. -/
def layer : (⟨2, ![n, 128]⟩ : Shape).Idx → EReal :=
  fun i => out x agg wa ba g b mm v wb bb (i 0) (i 1)

theorem layer_ix2 (r : Fin n) (j : Fin 128) :
    layer x agg wa ba g b mm v wb bb (ix2 r j) = out x agg wa ba g b mm v wb bb r j := rfl
end

/-- A node's output depends on its own rows of `x` and `agg` only: two node arrays (of any two lengths) that agree
    on row `r` against row `r'` give the same output there. -/
theorem out_congr {n n' : Nat}
    (x agg : (⟨2, ![n, 128]⟩ : Shape).Idx → EReal) (x' agg' : (⟨2, ![n', 128]⟩ : Shape).Idx → EReal)
    (wa : (⟨2, ![128, 128]⟩ : Shape).Idx → EReal) (ba g b mm v : (⟨1, ![128]⟩ : Shape).Idx → EReal)
    (wb : (⟨2, ![128, 128]⟩ : Shape).Idx → EReal) (bb : (⟨1, ![128]⟩ : Shape).Idx → EReal)
    (r : Fin n) (r' : Fin n') (hx : ∀ k, x (ix2 r k) = x' (ix2 r' k)) (hagg : ∀ k, agg (ix2 r k) = agg' (ix2 r' k))
    (j : Fin 128) :
    out x agg wa ba g b mm v wb bb r j = out x' agg' wa ba g b mm v wb bb r' j := by
  unfold out hidden
  simp only [hx, hagg]

/-- The same with the weight arrays replaced by equal ones: the form in which a block of a tiled node axis, read
    against the whole node array, meets the layer. -/
theorem out_congr_all {n n' : Nat}
    (x agg : (⟨2, ![n, 128]⟩ : Shape).Idx → EReal) (x' agg' : (⟨2, ![n', 128]⟩ : Shape).Idx → EReal)
    (wa wa' : (⟨2, ![128, 128]⟩ : Shape).Idx → EReal) (ba ba' g g' b b' mm mm' v v' : (⟨1, ![128]⟩ : Shape).Idx → EReal)
    (wb wb' : (⟨2, ![128, 128]⟩ : Shape).Idx → EReal) (bb bb' : (⟨1, ![128]⟩ : Shape).Idx → EReal)
    (r : Fin n) (r' : Fin n') (hx : ∀ k, x (ix2 r k) = x' (ix2 r' k)) (hagg : ∀ k, agg (ix2 r k) = agg' (ix2 r' k))
    (hwa : wa = wa') (hba : ba = ba') (hg : g = g') (hb : b = b') (hmm : mm = mm') (hv : v = v') (hwb : wb = wb')
    (hbb : bb = bb') (j : Fin 128) :
    out x agg wa ba g b mm v wb bb r j = out x' agg' wa' ba' g' b' mm' v' wb' bb' r' j := by
  subst hwa hba hg hb hmm hv hwb hbb
  exact out_congr x agg x' agg' wa ba g b mm v wb bb r r' hx hagg j

end Cert.GinLayer

end
-- ==== Proof.LibRowOps.lean ====
/-
  Rows and plain matrix products read at an index, for any extents.

  * A vector of `n` entries laid along each of `m` rows reads, at (p, c), the vector's entry `c`: in the kernel's
    spelling (the vector cast to one row, the row broadcast down) and in the host's (broadcast to one row along axis 1,
    the row broadcast down).
  * A scalar constant the host broadcasts reads the constant's value everywhere.
  * A plain product of an `m × K` by a `K × n` matrix reads, at (p, c), `∑ k, l (p, k) · r (k, c)` on the extended
    reals — the kernel's matmul into a zero accumulator and the host's dot_general alike — given the four coordinate
    facts of its dimension record (left operand indexed (row, k), right operand (k, column)).
-/
import Idealize.ShloMosaic.Lib.KernelVsHost
import Idealize.ShloMosaic.Lib.ValueLayout
import Idealize.ShloMosaic.Lib.IdealHost

noncomputable section

namespace Cert.LibRowOps

open Idealize.ShloMosaic Idealize.ShloMosaic.ValueIdx

section Rows
variable {α : Type}

/-- The kernel's spelling: the vector cast to `[1, n]`, that row broadcast to `[m, n]`. -/
theorem castRow_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ x h1) hb (ix2 p c) = x (ix1 c) :=
  (broadcastTo_1b_ab_apply _ hb p c).trans (shapeCast_a_1a_apply x h1 0 c)

/-- The host's spelling: the vector broadcast to `[1, n]` along axis 1, that row broadcast to `[m, n]`. -/
theorem hostRow_apply {m n : Nat} (x : (⟨1, ![n]⟩ : Shape).Idx → α)
    (h1 : (⟨1, ![n]⟩ : Shape).BroadcastsInDim ⟨2, ![1, n]⟩ ![1])
    (hb : (⟨2, ![1, n]⟩ : Shape).BroadcastsInDim ⟨2, ![m, n]⟩ ![0, 1]) (p : Fin m) (c : Fin n) :
    broadcastInDim ⟨2, ![m, n]⟩ ![0, 1] hb (broadcastInDim ⟨2, ![1, n]⟩ ![1] h1 x) (ix2 p c) = x (ix1 c) := by
  refine (broadcastInDim_oneRow_apply hb _ p c).trans ?_
  refine broadcastInDim_apply ![1] h1 x (ix2 (0 : Fin 1) c) (ix1 c) fun a => ?_
  match a with
  | ⟨0, _⟩ =>
    show c.val = if n = 1 then 0 else c.val
    split
    · have := c.isLt; omega
    · rfl
end Rows

/-- A float constant the host broadcasts from a scalar reads the constant's value at every index. -/
theorem hostConst_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

section Products
variable {m K n : Nat} {φ₁ φ₂ : FTy}
variable (d : DotDims ⟨2, ![m, K]⟩ ⟨2, ![K, n]⟩ ⟨2, ![m, n]⟩) (hr : d.contr.rank = 1)
  (hs : d.contr.size ⟨0, by omega⟩ = K)
  (hl0 : ∀ (i : (⟨2, ![m, n]⟩ : Shape).Idx) (q : d.contr.Idx), (d.lhsIdx i q 0).val = (i 0).val)
  (hl1 : ∀ (i : (⟨2, ![m, n]⟩ : Shape).Idx) (q : d.contr.Idx), (d.lhsIdx i q 1).val = (q ⟨0, by omega⟩).val)
  (hr0 : ∀ (i : (⟨2, ![m, n]⟩ : Shape).Idx) (q : d.contr.Idx), (d.rhsIdx i q 0).val = (q ⟨0, by omega⟩).val)
  (hr1 : ∀ (i : (⟨2, ![m, n]⟩ : Shape).Idx) (q : d.contr.Idx), (d.rhsIdx i q 1).val = (i 1).val)
include hs hl0 hl1 hr0 hr1

/-- The sum over the record's contraction index is the sum over `k : Fin K` of the operands at (p, k) and (k, c). -/
theorem contr_sum (l : (⟨2, ![m, K]⟩ : Shape).Idx → EReal) (r : (⟨2, ![K, n]⟩ : Shape).Idx → EReal) (p : Fin m) (c : Fin n) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The kernel's matmul into a zero accumulator. -/
theorem matmul_zero_apply (prec : Option ContractPrecision) (l : FVec Ideal ⟨2, ![m, K]⟩ φ₁) (r : FVec Ideal ⟨2, ![K, n]⟩ φ₂)
    (p : Fin m) (c : Fin n) :
    FloatOps.matmul d prec l r (constant ⟨2, ![m, n]⟩ .f32 0x00000000#32) (ix2 p c) = ∑ k : Fin K, l (ix2 p k) * r (ix2 k c) :=
  (Ideal.matmul_constant_zero_apply d prec l r (ix2 p c)).trans (contr_sum d hr hs hl0 hl1 hr0 hr1 l r p c)

/-- The host's dot_general. -/
theorem dotGeneral_apply (prec : Option ContractPrecision) (sched : HostSchedule) (l : FVec Ideal ⟨2, ![m, K]⟩ φ₁)
    (r : FVec Ideal ⟨2, ![K, n]⟩ φ₂) (p : Fin m) (c : Fin n) :
    FloatOps.dotGeneral d prec sched l r (ix2 p c) = ∑ k : Fin K, l (ix2 p k) * r (ix2 k c) :=
  (Ideal.dotGeneral_apply d prec sched l r (ix2 p c)).trans (contr_sum d hr hs hl0 hl1 hr0 hr1 l r p c)
end Products

end Cert.LibRowOps

end
-- ==== Proof.KBlockOps.lean ====
/-
  The kernel body's two matrix products read at an index: the dimension record of a 5000-row block times a 128 × 128
  matrix indexes its left operand (row, k) and its right operand (k, column), so each product into the zero
  accumulator is `∑ k, l (p, k) · r (k, c)`.
-/
import proofs.«146963_j81243601371608_1_alg».proof.Proof.Gen.KernelIdeal
import proofs.«146963_j81243601371608_1_alg».proof.Proof.LibRowOps

noncomputable section

namespace Cert.KernelIdeal.BlockOps

open Idealize.ShloMosaic Idealize.ShloMosaic.ValueIdx Cert.KernelIdeal

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix, into the zero accumulator, at row `p` and column `c`. -/
theorem blockProduct_apply {φ₁ φ₂ : FTy} (l : FVec Ideal S5000x128 φ₁) (r : FVec Ideal S128x128 φ₂) (p : Fin 5000) (c : Fin 128) :
    matmul dot_S5000x128_S128x128_S5000x128_1_0_0_1_n_n none l r (constant S5000x128 .f32 0x00000000#32) (ix2 p c)
      = ∑ k : Fin 128, l (ix2 p k) * r (ix2 k c) :=
  Cert.LibRowOps.matmul_zero_apply dot_S5000x128_S128x128_S5000x128_1_0_0_1_n_n rfl rfl lhs_axis0 lhs_axis1 rhs_axis0 rhs_axis1 none l r p c

end Cert.KernelIdeal.BlockOps

end
-- ==== Proof.KRegion0.lean ====
/-
  The first fused GIN-layer region, at whatever contents `V` it is entered from: its output array ends holding the
  layer (Proof/Layer.lean) of the arrays it reads — node features, aggregated neighbours, the two weight matrices and
  the bias and normalisation vectors.

  The grid has ten points; point `t` reads rows `5000·t … 5000·t + 4999` of the two node arrays, reads every weight
  array whole, and writes rows `5000·t …` of the output. The body's result at row `p` of its block is the layer's
  output at that row (`pay_apply`), a row's output reads that row only, so point `t` writes back block `t` of the
  layer of the whole arrays (`flushed_eq`); the ten blocks cover the 50000 rows (`cover`).
-/
import proofs.«146963_j81243601371608_1_alg».proof.Proof.Gen.KernelIdeal.Frame
import proofs.«146963_j81243601371608_1_alg».proof.Proof.Layer
import proofs.«146963_j81243601371608_1_alg».proof.Proof.KBlockOps
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.BlockOps
open Idealize.ShloMosaic.Pipeline (Dat)

/-- The body's stored value at row `p`, column `q` of its block is the layer's output there, of the blocks it loaded. -/
theorem pay_apply (x0 x1 : Vec Ideal S5000x128 .f32) (x2 : Vec Ideal S128x128 .bf16) (x3 x4 x5 x6 x7 : Vec Ideal S128 .f32)
    (x8 : Vec Ideal S128x128 .bf16) (x9 : Vec Ideal S128 .f32) (p : Fin 5000) (q : Fin 128) :
    k0_pay1 (k0_pay2 x0 x1 x2 x3 x7 x6 x4 x5 x8 x9) (ix2 p q)
      = Cert.GinLayer.out (n := 5000) x0 x1 x2 x3 x4 x5 x6 x7 x8 x9 p q := by
  unfold k0_pay1 k0_pay2 Cert.GinLayer.out Cert.GinLayer.hidden
  simp only [shapeCast_self, maximumf_apply, addf_apply, subf_apply, mulf_apply, truncf_apply, broadcast_apply,
    blockProduct_apply, Cert.LibRowOps.castRow_apply]
  rfl

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node arrays and the output move with the point along the rows, every
    other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- Row `p` of point `t`'s block is row `5000·t + p` of the node axis. -/
def rowOf (t : Fin cfg0.N) (p : Fin 5000) : Fin 50000 :=
  ⟨t.val * 5000 + p.val, by have ht : t.val < 10 := N_0 ▸ t.isLt; have := p.isLt; omega⟩

variable (V : (c : Dev nD) → (b : Ref sig .tc) → Buf (Elt Ideal) ((c : Thread nD τ).loc b))

/-- The layer of the arrays the region reads, as it finds them. -/
def G (c : Dev nD) : S50000x128.Idx → EReal :=
  Cert.GinLayer.layer (n := 50000) (V c main_arg0) (V c main_v13) (V c main_v14) (V c main_arg4) (V c main_arg5) (V c main_arg6)
    (V c main_arg7) (V c main_arg8) (V c main_v15) (V c main_arg10)

/-! ## The blocks a point reads -/

theorem blk0_apply (c : Dev nD) (t : Fin cfg0.N) (p : Fin 5000) (k : Fin 128) :
    iblk0 V c 0 t (ix2 p k) = V c main_arg0 (ix2 (rowOf t p) k) := by
  show V c main_arg0 (((cfg0.win 0).blk t).view.emb (ix2 p k)) = _
  refine congrArg (V c main_arg0) (funext fun a => Fin.ext ?_)
  have e := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1_apply (c : Dev nD) (t : Fin cfg0.N) (p : Fin 5000) (k : Fin 128) :
    iblk0 V c 1 t (ix2 p k) = V c main_v13 (ix2 (rowOf t p) k) := by
  show V c main_v13 (((cfg0.win 1).blk t).view.emb (ix2 p k)) = _
  refine congrArg (V c main_v13) (funext fun a => Fin.ext ?_)
  have e := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk2_eq (c : Dev nD) (t : Fin cfg0.N) : iblk0 V c 2 t = V c main_v14 := by
  funext y
  show V c main_v14 (((cfg0.win 2).blk t).view.emb y) = V c main_v14 y
  refine congrArg (V c main_v14) (funext fun a => Fin.ext ?_)
  have e := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk8_eq (c : Dev nD) (t : Fin cfg0.N) : iblk0 V c 8 t = V c main_v15 := by
  funext y
  show V c main_v15 (((cfg0.win 8).blk t).view.emb y) = V c main_v15 y
  refine congrArg (V c main_v15) (funext fun a => Fin.ext ?_)
  have e := idx_facts t
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem blk3_eq (c : Dev nD) (t : Fin cfg0.N) : iblk0 V c 3 t = V c main_arg4 := by
  funext y
  show V c main_arg4 (((cfg0.win 3).blk t).view.emb y) = V c main_arg4 y
  refine congrArg (V c main_arg4) (funext fun a => Fin.ext ?_)
  have e := idx_facts t
  match a with
  | ⟨0, _⟩ => show win0_3.index t (0 : Fin 1) * 128 + 1 * (y 0).val = (y 0).val; omega

theorem blk4_eq (c : Dev nD) (t : Fin cfg0.N) : iblk0 V c 4 t = V c main_arg5 := by
  funext y
  show V c main_arg5 (((cfg0.win 4).blk t).view.emb y) = V c main_arg5 y
  refine congrArg (V c main_arg5) (funext fun a => Fin.ext ?_)
  have e := idx_facts t
  match a with
  | ⟨0, _⟩ => show win0_4.index t (0 : Fin 1) * 128 + 1 * (y 0).val = (y 0).val; omega

theorem blk5_eq (c : Dev nD) (t : Fin cfg0.N) : iblk0 V c 5 t = V c main_arg6 := by
  funext y
  show V c main_arg6 (((cfg0.win 5).blk t).view.emb y) = V c main_arg6 y
  refine congrArg (V c main_arg6) (funext fun a => Fin.ext ?_)
  have e := idx_facts t
  match a with
  | ⟨0, _⟩ => show win0_5.index t (0 : Fin 1) * 128 + 1 * (y 0).val = (y 0).val; omega

theorem blk6_eq (c : Dev nD) (t : Fin cfg0.N) : iblk0 V c 6 t = V c main_arg7 := by
  funext y
  show V c main_arg7 (((cfg0.win 6).blk t).view.emb y) = V c main_arg7 y
  refine congrArg (V c main_arg7) (funext fun a => Fin.ext ?_)
  have e := idx_facts t
  match a with
  | ⟨0, _⟩ => show win0_6.index t (0 : Fin 1) * 128 + 1 * (y 0).val = (y 0).val; omega

theorem blk7_eq (c : Dev nD) (t : Fin cfg0.N) : iblk0 V c 7 t = V c main_arg8 := by
  funext y
  show V c main_arg8 (((cfg0.win 7).blk t).view.emb y) = V c main_arg8 y
  refine congrArg (V c main_arg8) (funext fun a => Fin.ext ?_)
  have e := idx_facts t
  match a with
  | ⟨0, _⟩ => show win0_7.index t (0 : Fin 1) * 128 + 1 * (y 0).val = (y 0).val; omega

theorem blk9_eq (c : Dev nD) (t : Fin cfg0.N) : iblk0 V c 9 t = V c main_arg10 := by
  funext y
  show V c main_arg10 (((cfg0.win 9).blk t).view.emb y) = V c main_arg10 y
  refine congrArg (V c main_arg10) (funext fun a => Fin.ext ?_)
  have e := idx_facts t
  match a with
  | ⟨0, _⟩ => show win0_9.index t (0 : Fin 1) * 128 + 1 * (y 0).val = (y 0).val; omega

/-- Where row `p`, column `q` of point `t`'s output block lies in the output array. -/
theorem emb10 (t : Fin cfg0.N) (p : Fin 5000) (q : Fin 128) :
    ((cfg0.win 10).blk t).view.emb (ix2 p q) = ix2 (rowOf t p) q := by
  funext a; apply Fin.ext
  have e := idx_facts t
  match a with
  | ⟨0, _⟩ => show win0_10.index t (0 : Fin 2) * 5000 + 1 * p.val = t.val * 5000 + p.val; omega
  | ⟨1, _⟩ => show win0_10.index t (1 : Fin 2) * 128 + 1 * q.val = q.val; omega

/-! ## What a point writes back, and the array -/

/-- Point `t` writes back block `t` of the layer of the whole arrays. -/
theorem flushed_eq (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (k0_pay2 (iblk0 V c 0 t) (iblk0 V c 1 t) (iblk0 V c 2 t) (iblk0 V c 3 t) (iblk0 V c 7 t) (iblk0 V c 6 t)
      (iblk0 V c 4 t) (iblk0 V c 5 t) (iblk0 V c 8 t) (iblk0 V c 9 t)) (ix2 p q)
    = G V c (((cfg0.win 10).blk t).view.emb (ix2 p q))
  refine (pay_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p q).trans ?_
  refine Eq.trans ?_ (congrArg (G V c) (emb10 t p q).symm)
  exact Cert.GinLayer.out_congr_all _ _ _ _ _ _ _ _ _ _ _ _ _ _ _ _ _ _ _ _ p (rowOf t p)
    (blk0_apply V c t p) (blk1_apply V c t p) (blk2_eq V c t) (blk3_eq V c t) (blk4_eq V c t) (blk5_eq V c t)
    (blk6_eq V c t) (blk7_eq V c t) (blk8_eq V c t) (blk9_eq V c t) q

/-- An index of the output array is in point `t`'s block iff each coordinate is in the block's range on its axis. -/
theorem mem_blk (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v16).slice (win0_10.rect t)).set ↔ _
  rw [View.set_slice_whole, Rect.mem_set_unit]
  exact Iff.rfl

/-- Every row is in the block of the point `row / 5000`. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have e := idx_facts t
  have ht : t.val = (i 0).val / 5000 := rfl
  refine ⟨t, flush0_10 t, ?_⟩
  rw [mem_blk]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- The region's output array after its ten write-backs is the layer of the arrays it read. -/
theorem final (c : Dev nD) : (dat0 V c).arrAt 10 cfg0.N = G V c :=
  (dat0 V c).arrAt_eq_of_cover 10 (G V c) (fun t _ => flushed_eq V c t) cover

end Cert.KernelIdeal.Region0

end
-- ==== Proof.KFold.lean ====
/-
  The kernel program's result, read through @main. Between the launch and the return the TensorCore's buffers pass
  eight boundaries (the generated `W0 … W7`): host operations, the first layer's region, host operations, the second
  layer's region, and the pooling tail in three stretches. Read at the buffers that matter:
  * before the first region, its aggregated-neighbour operand is the aggregation of the input features along the
    edges, its two weight operands the bf16 casts of the weight inputs, every other operand an input as launched;
  * the first region leaves the layer of those operands in its output (Proof/KRegion0.lean);
  * before the second region the same holds with the first layer's output in place of the input features;
  * the second region leaves the layer of its operands in its output (Proof/KRegion1.lean);
  * the result buffer is the tail of that output and of inputs as launched.
  So the result is `tail (layer (layer x …) …)` of the launch contents (`result_eq`).
-/
import proofs.«146963_j81243601371608_1_alg».proof.Proof.KRegion0
import proofs.«146963_j81243601371608_1_alg».proof.Proof.KRegion1
import Idealize.ShloMosaic.Lib.StableHlo.Run

set_option maxRecDepth 16384

noncomputable section

namespace Cert.KernelIdeal.FoldValue

open Idealize.ShloMosaic Idealize.ShloMosaic.TcCoe Idealize.ShloMosaic.ValueIdx Idealize.SL.Sem Idealize.ShloMosaic.StableHlo
open Cert.KernelIdeal Cert.KernelIdeal.Gen

/-! ## The host stretches as functions -/

/-- The source node of every edge: row 0 of the edge list. -/
def srcRow (ei : IVec S2x800000 32) : IVec S800000 32 :=
  shapeCast _ (extractStridedSlice S1x800000 ![0, 0] ei slices_S2x800000_S1x800000_0_0) shapeCasts_S1x800000_S800000
/-- The target node of every edge: row 1 of the edge list. -/
def dstRow (ei : IVec S2x800000 32) : IVec S800000 32 :=
  shapeCast _ (extractStridedSlice S1x800000 ![1, 0] ei slices_S2x800000_S1x800000_1_0) shapeCasts_S1x800000_S800000

/-- The neighbour aggregation from source and target rows: each edge's source row of `x` gathered (a negative
    source counted from the end, as jnp wraps it), summed into the edge's target row. -/
def aggFrom (x : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The neighbour aggregation of `x` along the edge list. -/
def aggOf (x : FVec Ideal S50000x128 .f32) (ei : IVec S2x800000 32) : FVec Ideal S50000x128 .f32 :=
  aggFrom x (srcRow ei) (dstRow ei)

/-- The tail: the nodes summed into their graphs, a linear map with ReLU, a linear map. -/
def tail (h : FVec Ideal S50000x128 .f32) (batch : IVec S50000 32) (l1w : FVec Ideal S128x128 .f32)
    (l1b : FVec Ideal S128 .f32) (l2w : FVec Ideal S128x2 .f32) (l2b : FVec Ideal S2 .f32) : FVec Ideal S128x2 .f32 :=
  addf (Host.dotGeneral dot_S128x128_S128x2_S128x2_1_0_0_1_n_n none
      (maximumf (addf (Host.dotGeneral dot_S128x128_S128x128_S128x128_1_0_0_1_n_n none
          (Host.scatterAdd scatter_S128x128_S50000x1_S50000x128_1_0_0_1 (broadcastInDim S128x128 ![] bcast_S_S128x128 (constant (F := Ideal) S_ .f32 0x00000000#32))
            (broadcastInDim S50000x1 ![0] bcast_S50000_S50000x1_0 batch) h) l1w)
          (broadcastInDim S128x128 ![0, 1] bcast_S1x128_S128x128_0_1 (broadcastInDim S1x128 ![1] bcast_S128_S1x128_1 l1b)))
        (broadcastInDim S128x128 ![] bcast_S_S128x128 (constant (F := Ideal) S_ .f32 0x00000000#32))) l2w)
    (broadcastInDim S128x2 ![0, 1] bcast_S1x2_S128x2_0_1 (broadcastInDim S1x2 ![1] bcast_S2_S1x2_1 l2b))

/-- A weight matrix cast to bf16 (on the extended reals, the matrix itself). -/
def castW (w : FVec Ideal S128x128 .f32) : FVec Ideal S128x128 .bf16 := truncf .bf16 w bitsLt_bf16_f32

theorem castW_eq (w : FVec Ideal S128x128 .f32) : castW w = w := rfl

variable (m : (ℓ : Loc nD τ sig) → Buf (Elt Ideal) ℓ) (ρ : Dev nD → PrngReg)

/-- A buffer's contents after a stretch of host operations, computed from the stretch's own text. -/
local macro "read_stretch" : tactic => `(tactic| (show StableHlo.after _ _ (Proc.devRef .tc _) = _; after_results_simp))

/-! ## Before the first region -/

theorem at1_arg0 (c : Dev nD) : V1 m ρ c main_arg0 = m ((c : Thread nD τ).loc main_arg0) := by read_stretch <;> rfl
set_option maxHeartbeats 4000000 in
theorem at1_v13 (c : Dev nD) : V1 m ρ c main_v13 = aggOf (m ((c : Thread nD τ).loc main_arg0)) (m ((c : Thread nD τ).loc main_arg1)) := by
  read_stretch <;> rfl
theorem at1_v14 (c : Dev nD) : V1 m ρ c main_v14 = castW (m ((c : Thread nD τ).loc main_arg3)) := by read_stretch <;> rfl
theorem at1_arg4 (c : Dev nD) : V1 m ρ c main_arg4 = m ((c : Thread nD τ).loc main_arg4) := by read_stretch <;> rfl
theorem at1_arg5 (c : Dev nD) : V1 m ρ c main_arg5 = m ((c : Thread nD τ).loc main_arg5) := by read_stretch <;> rfl
theorem at1_arg6 (c : Dev nD) : V1 m ρ c main_arg6 = m ((c : Thread nD τ).loc main_arg6) := by read_stretch <;> rfl
theorem at1_arg7 (c : Dev nD) : V1 m ρ c main_arg7 = m ((c : Thread nD τ).loc main_arg7) := by read_stretch <;> rfl
theorem at1_arg8 (c : Dev nD) : V1 m ρ c main_arg8 = m ((c : Thread nD τ).loc main_arg8) := by read_stretch <;> rfl
theorem at1_v15 (c : Dev nD) : V1 m ρ c main_v15 = castW (m ((c : Thread nD τ).loc main_arg9)) := by read_stretch <;> rfl
theorem at1_arg10 (c : Dev nD) : V1 m ρ c main_arg10 = m ((c : Thread nD τ).loc main_arg10) := by read_stretch <;> rfl

/-- The first layer's output: the layer of the launch contents. -/
def h1 (c : Dev nD) : S50000x128.Idx → EReal :=
  Cert.GinLayer.layer (n := 50000) (m ((c : Thread nD τ).loc main_arg0))
    (aggOf (m ((c : Thread nD τ).loc main_arg0)) (m ((c : Thread nD τ).loc main_arg1)))
    (castW (m ((c : Thread nD τ).loc main_arg3))) (m ((c : Thread nD τ).loc main_arg4))
    (m ((c : Thread nD τ).loc main_arg5)) (m ((c : Thread nD τ).loc main_arg6)) (m ((c : Thread nD τ).loc main_arg7))
    (m ((c : Thread nD τ).loc main_arg8)) (castW (m ((c : Thread nD τ).loc main_arg9)))
    (m ((c : Thread nD τ).loc main_arg10))

/-! ## After the first region -/

theorem at2_v16 (c : Dev nD) : W2 m ρ c (Proc.devRef .tc main_v16) = h1 m c := by
  refine ((W2_arr m ρ c 10).trans (Cert.KernelIdeal.Region0.final (V1 m ρ) c)).trans ?_
  unfold Cert.KernelIdeal.Region0.G h1
  rw [at1_arg0, at1_v13, at1_v14, at1_arg4, at1_arg5, at1_arg6, at1_arg7, at1_arg8, at1_v15, at1_arg10]

theorem at2_v1 (c : Dev nD) : W2 m ρ c (Proc.devRef .tc main_v1) = srcRow (m ((c : Thread nD τ).loc main_arg1)) :=
  (W2_of_ne m ρ c main_v1 (by decide)).trans (by read_stretch <;> rfl)
theorem at2_v3 (c : Dev nD) : W2 m ρ c (Proc.devRef .tc main_v3) = dstRow (m ((c : Thread nD τ).loc main_arg1)) :=
  (W2_of_ne m ρ c main_v3 (by decide)).trans (by read_stretch <;> rfl)
theorem at2_arg2 (c : Dev nD) : W2 m ρ c (Proc.devRef .tc main_arg2) = m ((c : Thread nD τ).loc main_arg2) :=
  (W2_of_ne m ρ c main_arg2 (by decide)).trans (by read_stretch <;> rfl)
theorem at2_arg11 (c : Dev nD) : W2 m ρ c (Proc.devRef .tc main_arg11) = m ((c : Thread nD τ).loc main_arg11) :=
  (W2_of_ne m ρ c main_arg11 (by decide)).trans (by read_stretch <;> rfl)
theorem at2_arg12 (c : Dev nD) : W2 m ρ c (Proc.devRef .tc main_arg12) = m ((c : Thread nD τ).loc main_arg12) :=
  (W2_of_ne m ρ c main_arg12 (by decide)).trans (by read_stretch <;> rfl)
theorem at2_arg13 (c : Dev nD) : W2 m ρ c (Proc.devRef .tc main_arg13) = m ((c : Thread nD τ).loc main_arg13) :=
  (W2_of_ne m ρ c main_arg13 (by decide)).trans (by read_stretch <;> rfl)
theorem at2_arg14 (c : Dev nD) : W2 m ρ c (Proc.devRef .tc main_arg14) = m ((c : Thread nD τ).loc main_arg14) :=
  (W2_of_ne m ρ c main_arg14 (by decide)).trans (by read_stretch <;> rfl)
theorem at2_arg15 (c : Dev nD) : W2 m ρ c (Proc.devRef .tc main_arg15) = m ((c : Thread nD τ).loc main_arg15) :=
  (W2_of_ne m ρ c main_arg15 (by decide)).trans (by read_stretch <;> rfl)
theorem at2_arg16 (c : Dev nD) : W2 m ρ c (Proc.devRef .tc main_arg16) = m ((c : Thread nD τ).loc main_arg16) :=
  (W2_of_ne m ρ c main_arg16 (by decide)).trans (by read_stretch <;> rfl)
theorem at2_arg17 (c : Dev nD) : W2 m ρ c (Proc.devRef .tc main_arg17) = m ((c : Thread nD τ).loc main_arg17) :=
  (W2_of_ne m ρ c main_arg17 (by decide)).trans (by read_stretch <;> rfl)
theorem at2_arg18 (c : Dev nD) : W2 m ρ c (Proc.devRef .tc main_arg18) = m ((c : Thread nD τ).loc main_arg18) :=
  (W2_of_ne m ρ c main_arg18 (by decide)).trans (by read_stretch <;> rfl)
theorem at2_arg19 (c : Dev nD) : W2 m ρ c (Proc.devRef .tc main_arg19) = m ((c : Thread nD τ).loc main_arg19) :=
  (W2_of_ne m ρ c main_arg19 (by decide)).trans (by read_stretch <;> rfl)
theorem at2_arg20 (c : Dev nD) : W2 m ρ c (Proc.devRef .tc main_arg20) = m ((c : Thread nD τ).loc main_arg20) :=
  (W2_of_ne m ρ c main_arg20 (by decide)).trans (by read_stretch <;> rfl)
theorem at2_arg21 (c : Dev nD) : W2 m ρ c (Proc.devRef .tc main_arg21) = m ((c : Thread nD τ).loc main_arg21) :=
  (W2_of_ne m ρ c main_arg21 (by decide)).trans (by read_stretch <;> rfl)
theorem at2_arg22 (c : Dev nD) : W2 m ρ c (Proc.devRef .tc main_arg22) = m ((c : Thread nD τ).loc main_arg22) :=
  (W2_of_ne m ρ c main_arg22 (by decide)).trans (by read_stretch <;> rfl)

/-! ## Before the second region -/

theorem at3_v16 (c : Dev nD) : V3 m ρ c main_v16 = h1 m c := by
  refine Eq.trans ?_ (at2_v16 m ρ c); read_stretch
set_option maxHeartbeats 4000000 in
theorem at3_v26 (c : Dev nD) : V3 m ρ c main_v26 = aggOf (h1 m c) (m ((c : Thread nD τ).loc main_arg1)) := by
  have e : V3 m ρ c main_v26 = aggFrom (W2 m ρ c (Proc.devRef .tc main_v16)) (W2 m ρ c (Proc.devRef .tc main_v1)) (W2 m ρ c (Proc.devRef .tc main_v3)) := by
    read_stretch <;> rfl
  rw [e, at2_v16, at2_v1, at2_v3]; rfl
theorem at3_v27 (c : Dev nD) : V3 m ρ c main_v27 = castW (m ((c : Thread nD τ).loc main_arg11)) := by
  have e : V3 m ρ c main_v27 = castW (W2 m ρ c (Proc.devRef .tc main_arg11)) := by read_stretch <;> rfl
  rw [e, at2_arg11]
theorem at3_v28 (c : Dev nD) : V3 m ρ c main_v28 = castW (m ((c : Thread nD τ).loc main_arg17)) := by
  have e : V3 m ρ c main_v28 = castW (W2 m ρ c (Proc.devRef .tc main_arg17)) := by read_stretch <;> rfl
  rw [e, at2_arg17]
theorem at3_arg12 (c : Dev nD) : V3 m ρ c main_arg12 = m ((c : Thread nD τ).loc main_arg12) := by
  refine Eq.trans ?_ (at2_arg12 m ρ c); read_stretch
theorem at3_arg13 (c : Dev nD) : V3 m ρ c main_arg13 = m ((c : Thread nD τ).loc main_arg13) := by
  refine Eq.trans ?_ (at2_arg13 m ρ c); read_stretch
theorem at3_arg14 (c : Dev nD) : V3 m ρ c main_arg14 = m ((c : Thread nD τ).loc main_arg14) := by
  refine Eq.trans ?_ (at2_arg14 m ρ c); read_stretch
theorem at3_arg15 (c : Dev nD) : V3 m ρ c main_arg15 = m ((c : Thread nD τ).loc main_arg15) := by
  refine Eq.trans ?_ (at2_arg15 m ρ c); read_stretch
theorem at3_arg16 (c : Dev nD) : V3 m ρ c main_arg16 = m ((c : Thread nD τ).loc main_arg16) := by
  refine Eq.trans ?_ (at2_arg16 m ρ c); read_stretch
theorem at3_arg18 (c : Dev nD) : V3 m ρ c main_arg18 = m ((c : Thread nD τ).loc main_arg18) := by
  refine Eq.trans ?_ (at2_arg18 m ρ c); read_stretch

/-- The second layer's output: the layer of the first's and of the launch contents. -/
def h2 (c : Dev nD) : S50000x128.Idx → EReal :=
  Cert.GinLayer.layer (n := 50000) (h1 m c) (aggOf (h1 m c) (m ((c : Thread nD τ).loc main_arg1)))
    (castW (m ((c : Thread nD τ).loc main_arg11))) (m ((c : Thread nD τ).loc main_arg12))
    (m ((c : Thread nD τ).loc main_arg13)) (m ((c : Thread nD τ).loc main_arg14)) (m ((c : Thread nD τ).loc main_arg15))
    (m ((c : Thread nD τ).loc main_arg16)) (castW (m ((c : Thread nD τ).loc main_arg17)))
    (m ((c : Thread nD τ).loc main_arg18))

/-! ## After the second region, and the tail -/

theorem at4_v29 (c : Dev nD) : W4 m ρ c (Proc.devRef .tc main_v29) = h2 m c := by
  refine ((W4_arr m ρ c 10).trans (Cert.KernelIdeal.Region1.final (V3 m ρ) c)).trans ?_
  unfold Cert.KernelIdeal.Region1.G h2
  rw [at3_v16, at3_v26, at3_v27, at3_arg12, at3_arg13, at3_arg14, at3_arg15, at3_arg16, at3_v28, at3_arg18]

theorem at4_arg2 (c : Dev nD) : W4 m ρ c (Proc.devRef .tc main_arg2) = m ((c : Thread nD τ).loc main_arg2) := by
  refine (W4_of_ne m ρ c main_arg2 (by decide)).trans (Eq.trans ?_ (at2_arg2 m ρ c)); read_stretch
theorem at4_arg19 (c : Dev nD) : W4 m ρ c (Proc.devRef .tc main_arg19) = m ((c : Thread nD τ).loc main_arg19) := by
  refine (W4_of_ne m ρ c main_arg19 (by decide)).trans (Eq.trans ?_ (at2_arg19 m ρ c)); read_stretch
theorem at4_arg20 (c : Dev nD) : W4 m ρ c (Proc.devRef .tc main_arg20) = m ((c : Thread nD τ).loc main_arg20) := by
  refine (W4_of_ne m ρ c main_arg20 (by decide)).trans (Eq.trans ?_ (at2_arg20 m ρ c)); read_stretch
theorem at4_arg21 (c : Dev nD) : W4 m ρ c (Proc.devRef .tc main_arg21) = m ((c : Thread nD τ).loc main_arg21) := by
  refine (W4_of_ne m ρ c main_arg21 (by decide)).trans (Eq.trans ?_ (at2_arg21 m ρ c)); read_stretch
theorem at4_arg22 (c : Dev nD) : W4 m ρ c (Proc.devRef .tc main_arg22) = m ((c : Thread nD τ).loc main_arg22) := by
  refine (W4_of_ne m ρ c main_arg22 (by decide)).trans (Eq.trans ?_ (at2_arg22 m ρ c)); read_stretch

set_option maxHeartbeats 4000000 in
/-- The result buffer at the return: the tail of the second layer's output. -/
theorem result_eq (c : Dev nD) :
    W7 m ρ c (Proc.devRef .tc main_v41)
      = tail (h2 m c) (m ((c : Thread nD τ).loc main_arg2)) (m ((c : Thread nD τ).loc main_arg19))
          (m ((c : Thread nD τ).loc main_arg20)) (m ((c : Thread nD τ).loc main_arg21)) (m ((c : Thread nD τ).loc main_arg22)) := by
  have e : W7 m ρ c (Proc.devRef .tc main_v41)
      = tail (W4 m ρ c (Proc.devRef .tc main_v29)) (W4 m ρ c (Proc.devRef .tc main_arg2)) (W4 m ρ c (Proc.devRef .tc main_arg19))
          (W4 m ρ c (Proc.devRef .tc main_arg20)) (W4 m ρ c (Proc.devRef .tc main_arg21)) (W4 m ρ c (Proc.devRef .tc main_arg22)) := by
    show StableHlo.after hostOps2_2 (StableHlo.after hostOps2_1 (StableHlo.after hostOps2 (W4 m ρ c))) (Proc.devRef .tc main_v41) = _
    after_results_simp <;> rfl
  rw [e, at4_v29, at4_arg2, at4_arg19, at4_arg20, at4_arg21, at4_arg22]

end Cert.KernelIdeal.FoldValue

end
-- ==== Proof.RefLayer.lean ====
/-
  The reference's side. One GIN layer as the reference's host operations (`hostLayer`) is the layer of
  Proof/Layer.lean, index by index: its dot_general is the sum over the 128 input features, each vector it lays
  along the rows reads that vector's entry, its constants read their values, and its rsqrt and ReLU are the
  extended-real ones. The reference's whole result is then the pooling tail of two such layers, each fed the
  neighbour aggregation of the layer before (`result_eq`, the generated run's term unfolded).
-/
import proofs.«146963_j81243601371608_1_alg».proof.Proof.Gen.ReferenceIdeal.Read
import proofs.«146963_j81243601371608_1_alg».proof.Proof.Layer
import proofs.«146963_j81243601371608_1_alg».proof.Proof.LibRowOps

set_option maxRecDepth 16384

noncomputable section

namespace Cert.ReferenceIdeal.LayerValue

open Idealize.ShloMosaic Idealize.ShloMosaic.TcCoe Idealize.ShloMosaic.ValueIdx Idealize.SL.Sem
open Cert.ReferenceIdeal Cert.ReferenceIdeal.Gen

/-- A vector laid along every node's row, as the reference spells it. -/
abbrev rows (u : FVec Ideal S128 .f32) : FVec Ideal S50000x128 .f32 :=
  broadcastInDim S50000x128 ![0, 1] bcast_S1x128_S50000x128_0_1 (broadcastInDim S1x128 ![1] bcast_S128_S1x128_1 u)

/-- One layer as the reference's host operations, of the node features `x`, the aggregated neighbours `agg` and the
    layer's weights. -/
def hostLayer (x agg : FVec Ideal S50000x128 .f32) (wa : FVec Ideal S128x128 .f32) (ba g b mm v : FVec Ideal S128 .f32)
    (wb : FVec Ideal S128x128 .f32) (bb : FVec Ideal S128 .f32) : FVec Ideal S50000x128 .f32 :=
  maximumf (addf (Host.dotGeneral dot_S50000x128_S128x128_S50000x128_1_0_0_1_n_n none
      (maximumf (addf (mulf (mulf (subf (addf (Host.dotGeneral dot_S50000x128_S128x128_S50000x128_1_0_0_1_n_n none (addf x agg) wa) (rows ba)) (rows mm))
          (rows (Host.rsqrt (addf v (broadcastInDim S128 ![] bcast_S_S128 (constant (F := Ideal) S_ .f32 0x3727C5AC#32)))))) (rows g)) (rows b))
        (broadcastInDim S50000x128 ![] bcast_S_S50000x128 (constant (F := Ideal) S_ .f32 0x00000000#32))) wb) (rows bb))
    (broadcastInDim S50000x128 ![] bcast_S_S50000x128 (constant (F := Ideal) S_ .f32 0x00000000#32))

/-- The source node of every edge, a negative index counted from the end (`edge_index[0]`, wrapped as jnp does). -/
def srcIdx (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000) (broadcastInDim S800000 ![] bcast_S_S800000 (constantI S_ 32 0#32)))
      (addi (shapeCast _ (extractStridedSlice S1x800000 ![0, 0] ei slices_S2x800000_S1x800000_0_0) shapeCasts_S1x800000_S800000) (broadcastInDim S800000 ![] bcast_S_S800000 (constantI S_ 32 50000#32)))
      (shapeCast _ (extractStridedSlice S1x800000 ![0, 0] ei slices_S2x800000_S1x800000_0_0) shapeCasts_S1x800000_S800000))

/-- The target node of every edge (`edge_index[1]`). -/
def dstIdx (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

/-- The neighbour aggregation: each edge's source row gathered, summed into its target row. -/
def aggOf (x : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx ei)
    (Host.gather gather_S50000x128_S800000x1_S800000x128_1_0_n_n_0_1_1128 x (srcIdx ei))

/-- The tail: the nodes summed into their graphs, a linear map with ReLU, a linear map. -/
def tail (h : FVec Ideal S50000x128 .f32) (batch : IVec S50000 32) (l1w : FVec Ideal S128x128 .f32) (l1b : FVec Ideal S128 .f32)
    (l2w : FVec Ideal S128x2 .f32) (l2b : FVec Ideal S2 .f32) : FVec Ideal S128x2 .f32 :=
  addf (Host.dotGeneral dot_S128x128_S128x2_S128x2_1_0_0_1_n_n none
      (maximumf (addf (Host.dotGeneral dot_S128x128_S128x128_S128x128_1_0_0_1_n_n none
          (Host.scatterAdd scatter_S128x128_S50000x1_S50000x128_1_0_0_1 (broadcastInDim S128x128 ![] bcast_S_S128x128 (constant (F := Ideal) S_ .f32 0x00000000#32))
            (broadcastInDim S50000x1 ![0] bcast_S50000_S50000x1_0 batch) h) l1w)
          (broadcastInDim S128x128 ![0, 1] bcast_S1x128_S128x128_0_1 (broadcastInDim S1x128 ![1] bcast_S128_S1x128_1 l1b)))
        (broadcastInDim S128x128 ![] bcast_S_S128x128 (constant (F := Ideal) S_ .f32 0x00000000#32))) l2w)
    (broadcastInDim S128x2 ![0, 1] bcast_S1x2_S128x2_0_1 (broadcastInDim S1x2 ![1] bcast_S2_S1x2_1 l2b))

/-- The reference's dot_general of a node array with a weight matrix, at node `r` and column `c`. -/
theorem nodeProduct_apply {φ₁ φ₂ : FTy} (l : FVec Ideal S50000x128 φ₁) (r : FVec Ideal S128x128 φ₂) (p : Fin 50000) (c : Fin 128) :
    Host.dotGeneral dot_S50000x128_S128x128_S50000x128_1_0_0_1_n_n none l r (ix2 p c) = ∑ k : Fin 128, l (ix2 p k) * r (ix2 k c) :=
  Cert.LibRowOps.dotGeneral_apply dot_S50000x128_S128x128_S50000x128_1_0_0_1_n_n rfl rfl
    Cert.ReferenceIdeal.Read.lhs_main_v15_0 Cert.ReferenceIdeal.Read.lhs_main_v15_1 Cert.ReferenceIdeal.Read.rhs_main_v15_0
    Cert.ReferenceIdeal.Read.rhs_main_v15_1 none _ l r p c

theorem rows_apply (u : FVec Ideal S128 .f32) (p : Fin 50000) (c : Fin 128) : rows u (ix2 p c) = u (ix1 c) :=
  Cert.LibRowOps.hostRow_apply u bcast_S128_S1x128_1 bcast_S1x128_S50000x128_0_1 p c

/-- The reference's layer is the layer. -/
theorem hostLayer_eq (x agg : FVec Ideal S50000x128 .f32) (wa : FVec Ideal S128x128 .f32) (ba g b mm v : FVec Ideal S128 .f32)
    (wb : FVec Ideal S128x128 .f32) (bb : FVec Ideal S128 .f32) :
    hostLayer x agg wa ba g b mm v wb bb = Cert.GinLayer.layer (n := 50000) x agg wa ba g b mm v wb bb := by
  funext i
  obtain ⟨p, q, rfl⟩ : ∃ (p : Fin 50000) (q : Fin 128), i = ix2 p q := ⟨i 0, i 1, eq_ix2 i⟩
  rw [Cert.GinLayer.layer_ix2]
  unfold hostLayer Cert.GinLayer.out Cert.GinLayer.hidden
  simp only [maximumf_apply, addf_apply, subf_apply, mulf_apply, nodeProduct_apply, rows_apply, Cert.LibRowOps.hostConst_apply]
  rfl

end Cert.ReferenceIdeal.LayerValue

end
-- ==== Proof.RefResult.lean ====
/-
  The reference's result, as the tail of two layers: the generated run's term (`res_main_v87`) is, by unfolding, the
  tail of the reference's second host layer, fed the first host layer's output and its neighbour aggregation; and
  each host layer is the layer of Proof/Layer.lean (Proof/RefLayer.lean).
-/
import proofs.«146963_j81243601371608_1_alg».proof.Proof.RefLayer

set_option maxRecDepth 16384

noncomputable section

namespace Cert.ReferenceIdeal.LayerValue

open Idealize.ShloMosaic Idealize.ShloMosaic.TcCoe Idealize.SL.Sem
open Cert.ReferenceIdeal Cert.ReferenceIdeal.Gen

variable (m : (ℓ : Loc nD τ sig) → Buf (Elt Ideal) ℓ)

/-- The first layer's output, of the launch contents. -/
def r1 (c : Dev nD) : S50000x128.Idx → EReal :=
  Cert.GinLayer.layer (n := 50000) (m ((c.tc : Thread nD τ).loc main_arg0))
    (aggOf (m ((c.tc : Thread nD τ).loc main_arg0)) (m ((c.tc : Thread nD τ).loc main_arg1)))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The second layer's output. -/
def r2 (c : Dev nD) : S50000x128.Idx → EReal :=
  Cert.GinLayer.layer (n := 50000) (r1 m c) (aggOf (r1 m c) (m ((c.tc : Thread nD τ).loc main_arg1)))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18))

/-- The run's term, with each layer named. -/
theorem result_hostLayers (c : Dev nD) :
    Cert.ReferenceIdeal.Value.res_main_v87 (F := Ideal) m c
      = tail
          (hostLayer
            (hostLayer (m ((c.tc : Thread nD τ).loc main_arg0)) (aggOf (m ((c.tc : Thread nD τ).loc main_arg0)) (m ((c.tc : Thread nD τ).loc main_arg1)))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)))
            (aggOf
              (hostLayer (m ((c.tc : Thread nD τ).loc main_arg0)) (aggOf (m ((c.tc : Thread nD τ).loc main_arg0)) (m ((c.tc : Thread nD τ).loc main_arg1)))
                (m ((c.tc : Thread nD τ).loc main_arg3)) (m ((c.tc : Thread nD τ).loc main_arg4)) (m ((c.tc : Thread nD τ).loc main_arg5))
                (m ((c.tc : Thread nD τ).loc main_arg6)) (m ((c.tc : Thread nD τ).loc main_arg7)) (m ((c.tc : Thread nD τ).loc main_arg8))
                (m ((c.tc : Thread nD τ).loc main_arg9)) (m ((c.tc : Thread nD τ).loc main_arg10)))
              (m ((c.tc : Thread nD τ).loc main_arg1)))
            (m ((c.tc : Thread nD τ).loc main_arg11)) (m ((c.tc : Thread nD τ).loc main_arg12)) (m ((c.tc : Thread nD τ).loc main_arg13))
            (m ((c.tc : Thread nD τ).loc main_arg14)) (m ((c.tc : Thread nD τ).loc main_arg15)) (m ((c.tc : Thread nD τ).loc main_arg16))
            (m ((c.tc : Thread nD τ).loc main_arg17)) (m ((c.tc : Thread nD τ).loc main_arg18)))
          (m ((c.tc : Thread nD τ).loc main_arg2)) (m ((c.tc : Thread nD τ).loc main_arg19)) (m ((c.tc : Thread nD τ).loc main_arg20))
          (m ((c.tc : Thread nD τ).loc main_arg21)) (m ((c.tc : Thread nD τ).loc main_arg22)) := by
  unfold Cert.ReferenceIdeal.Value.res_main_v87
  rfl

/-- The reference's result: the tail of the second layer's output. -/
theorem result_eq (c : Dev nD) :
    Cert.ReferenceIdeal.Value.res_main_v87 (F := Ideal) m c
      = tail (r2 m c) (m ((c.tc : Thread nD τ).loc main_arg2)) (m ((c.tc : Thread nD τ).loc main_arg19))
          (m ((c.tc : Thread nD τ).loc main_arg20)) (m ((c.tc : Thread nD τ).loc main_arg21)) (m ((c.tc : Thread nD τ).loc main_arg22)) := by
  rw [result_hostLayers, hostLayer_eq, hostLayer_eq]
  rfl

end Cert.ReferenceIdeal.LayerValue

end
-- ==== Proof.lean ====
/-
  A two-layer graph isomorphism network, its dense layers fused into a tiled kernel, against the plain jnp network.

  Both programs compute, for node features `x`, an edge list and a graph assignment:
    h₁ = layer (x,  agg x)   with the first layer's weights,
    h₂ = layer (h₁, agg h₁)  with the second's,
    result = tail h₂,
  where `agg` sums each edge's source row into its target row, `layer` is
  `max (max (((h·wa + ba − mm)·rsqrt (v + ε))·g + b) 0 · wb + bb) 0` at `h = x + agg` (Proof/Layer.lean) and `tail` sums the
  nodes into their graphs and applies two linear maps with a ReLU between. They differ only inside `layer`: the kernel
  program runs it in a region that walks the 50000 nodes in ten blocks of 5000 rows, multiplies on the matrix unit
  into a zero accumulator, casts the two weight matrices (on the host) and both left operands to bf16, and lays each
  bias vector along the rows by a cast and a broadcast; the reference multiplies with dot_general over all rows at
  once. On the extended reals a change of float format is the identity, a product into a zero accumulator is the
  plain sum over the 128 input features, and a node's output reads that node's own rows only, so every block the kernel
  writes back is that block of the reference's layer (Proof/KRegion0.lean, Proof/KRegion1.lean against
  Proof/RefLayer.lean). No step moves a factor across a sum or cancels, so the inputs' finiteness is never used.
  The aggregation and the tail are the same host operations in both programs and are carried as functions, never
  opened. The idealization rewrote nothing, so `preserves` is the empty conjunction. The frames are the generated ones.
-/
import proofs.«146963_j81243601371608_1_alg».proof.Defs
import proofs.«146963_j81243601371608_1_alg».proof.Proof.Gen.Kernel
import proofs.«146963_j81243601371608_1_alg».proof.Proof.Gen.Kernel.Frame
import proofs.«146963_j81243601371608_1_alg».proof.Proof.Gen.KernelIdeal
import proofs.«146963_j81243601371608_1_alg».proof.Proof.Gen.ReferenceIdeal
import proofs.«146963_j81243601371608_1_alg».proof.Proof.Gen.Pre_finite_inputs
import proofs.«146963_j81243601371608_1_alg».proof.Proof.KernelRun
import proofs.«146963_j81243601371608_1_alg».proof.Proof.KFold
import proofs.«146963_j81243601371608_1_alg».proof.Proof.RefResult
import Idealize.ShloMosaic.Adequacy
import Idealize.ShloMosaic.Init

set_option maxRecDepth 16384

noncomputable section

namespace Cert.Proof

open Idealize.ShloMosaic Idealize.SL.Sem

/-! ## The shared host functions are the same functions in both programs' vocabularies -/

/-- The neighbour aggregation, as each program's text spells it. -/
theorem aggOf_eq (x : FVec Ideal Cert.KernelIdeal.S50000x128 .f32) (ei : IVec Cert.KernelIdeal.S2x800000 32) :
    Cert.KernelIdeal.FoldValue.aggOf x ei = Cert.ReferenceIdeal.LayerValue.aggOf x ei := rfl

/-- The pooling tail, as each program's text spells it. -/
theorem tail_eq (h : FVec Ideal Cert.KernelIdeal.S50000x128 .f32) (batch : IVec Cert.KernelIdeal.S50000 32)
    (l1w : FVec Ideal Cert.KernelIdeal.S128x128 .f32) (l1b : FVec Ideal Cert.KernelIdeal.S128 .f32)
    (l2w : FVec Ideal Cert.KernelIdeal.S128x2 .f32) (l2b : FVec Ideal Cert.KernelIdeal.S2 .f32) :
    Cert.KernelIdeal.FoldValue.tail h batch l1w l1b l2w l2b = Cert.ReferenceIdeal.LayerValue.tail h batch l1w l1b l2w l2b := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with `tail (layer (layer x …) …)` of them. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.FoldValue.result_eq m ρ c), (h c).2⟩)
    (Cert.KernelIdeal.GenRun.run_named m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22⟩ := hagree c
  rw [Cert.ReferenceIdeal.LayerValue.result_eq]
  simp only [Cert.ReferenceIdeal.LayerValue.r2, Cert.ReferenceIdeal.LayerValue.r1, Cert.KernelIdeal.FoldValue.h2,
    Cert.KernelIdeal.FoldValue.h1, a0, a1, a2, a3, a4, a5, a6, a7, a8, a9, a10, a11, a12, a13, a14, a15, a16, a17, a18, a19,
    a20, a21, a22, aggOf_eq, tail_eq, Cert.KernelIdeal.FoldValue.castW_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
